-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S256x128 : Shape := ⟨2, ![256, 128]⟩
abbrev S800000 : Shape := ⟨1, ![800000]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S800000 : S_.BroadcastsInDim S800000 (![] : Fin 0 → Fin S800000.rank)
  reducesTo_S800000_S_d0 : S800000.ReducesTo [0] S_

variable [Facts]

def fn_part1 {F : FTy → Type} [FloatOps F] (main_arg3 : IVec S800000 32) (main_v13 : IVec S_ 1) (main_v15 : IVec S800000 1) (main_c_5 : IVec S_ 32) : IVec S_ 1 :=
  let main_v16 : IVec S800000 32 := broadcastInDim S800000 ![] bcast_S_S800000 main_c_5
  let main_v17 : IVec S800000 1 := cmpi .slt main_arg3 main_v16
  let main_v18 : IVec S800000 1 := andi main_v15 main_v17
  let main_c_6 : IVec S_ 1 := constantI S_ 1 1#1
  let main_v19 : IVec S_ 1 := (fun x v => Host.reduce IntOp.andi x v reducesTo_S800000_S_d0 h_S_) main_v18 main_c_6
  let main_v20 : IVec S_ 1 := andi main_v13 main_v19
  main_v20

def fn {F : FTy → Type} [FloatOps F] (main_arg0 : FVec F S50000x256 .f32) (main_arg1 : FVec F S256x128 .f32) (main_arg2 : IVec S800000 32) (main_arg3 : IVec S800000 32) (main_arg4 : FVec F S800000 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x128 .f32 := Host.absf main_arg1
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S800000 .f32 := Host.absf main_arg4
  let main_cst_2 : FVec F S_ .f32 := constant S_ .f32 0x7F800000#32
  let main_v10 : FVec F S800000 .f32 := broadcastInDim S800000 ![] bcast_S_S800000 main_cst_2
  let main_v11 : IVec S800000 1 := cmpf .olt main_v9 main_v10
  let main_c_3 : IVec S_ 1 := constantI S_ 1 1#1
  let main_v12 : IVec S_ 1 := (fun x v => Host.reduce IntOp.andi x v reducesTo_S800000_S_d0 h_S_) main_v11 main_c_3
  let main_v13 : IVec S_ 1 := andi main_v8 main_v12
  let main_c_4 : IVec S_ 32 := constantI S_ 32 4294917296#32
  let main_v14 : IVec S800000 32 := broadcastInDim S800000 ![] bcast_S_S800000 main_c_4
  let main_v15 : IVec S800000 1 := cmpi .sge main_arg3 main_v14
  let main_c_5 : IVec S_ 32 := constantI S_ 32 50000#32
  fn_part1 (F := F) main_arg3 main_v13 main_v15 main_c_5
-- ==== Kernel.lean ====
abbrev S50000x256 : Shape := ⟨2, ![50000, 256]⟩
abbrev S256x128 : Shape := ⟨2, ![256, 128]⟩
abbrev S800000 : Shape := ⟨1, ![800000]⟩
abbrev S50000x128 : Shape := ⟨2, ![50000, 128]⟩
abbrev S5000x256 : Shape := ⟨2, ![5000, 256]⟩
abbrev S5000x128 : Shape := ⟨2, ![5000, 128]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x128 : Shape := ⟨2, ![800000, 128]⟩
abbrev S8000x128 : Shape := ⟨2, ![8000, 128]⟩
abbrev S8000x1 : Shape := ⟨2, ![8000, 1]⟩

abbrev nBuf : Space → Nat
  | .hbm => 35
  | .vmem => 11
  | .smem => 0
  | _ => 0

abbrev bufTy : (tb : Table) → Fin (tcTables nBuf tb) → BufTy
  | .hbm, ⟨0, _⟩ => ⟨S50000x256, .f32⟩
  | .hbm, ⟨1, _⟩ => ⟨S256x128, .f32⟩
  | .hbm, ⟨2, _⟩ => ⟨S800000, .i32⟩
  | .hbm, ⟨3, _⟩ => ⟨S800000, .i32⟩
  | .hbm, ⟨4, _⟩ => ⟨S800000, .f32⟩
  | .hbm, ⟨5, _⟩ => ⟨S50000x128, .f32⟩
  | .hbm, ⟨6, _⟩ => ⟨S_, .i32⟩
  | .hbm, ⟨7, _⟩ => ⟨S800000, .i32⟩
  | .hbm, ⟨8, _⟩ => ⟨S800000, .i1⟩
  | .hbm, ⟨9, _⟩ => ⟨S_, .i32⟩
  | .hbm, ⟨10, _⟩ => ⟨S800000, .i32⟩
  | .hbm, ⟨11, _⟩ => ⟨S800000, .i32⟩
  | .hbm, ⟨12, _⟩ => ⟨S800000, .i32⟩
  | .hbm, ⟨13, _⟩ => ⟨S800000x1, .i32⟩
  | .hbm, ⟨14, _⟩ => ⟨S1, .i32⟩
  | .hbm, ⟨15, _⟩ => ⟨S_, .i32⟩
  | .hbm, ⟨16, _⟩ => ⟨S800000x1, .i32⟩
  | .hbm, ⟨17, _⟩ => ⟨S800000x1, .i1⟩
  | .hbm, ⟨18, _⟩ => ⟨S1x1, .i32⟩
  | .hbm, ⟨19, _⟩ => ⟨S800000x1, .i32⟩
  | .hbm, ⟨20, _⟩ => ⟨S800000x1, .i1⟩
  | .hbm, ⟨21, _⟩ => ⟨S800000x1, .i1⟩
  | .hbm, ⟨22, _⟩ => ⟨S_, .i1⟩
  | .hbm, ⟨23, _⟩ => ⟨S800000, .i1⟩
  | .hbm, ⟨24, _⟩ => ⟨S800000x128, .f32⟩
  | .hbm, ⟨25, _⟩ => ⟨S800000x128, .i1⟩
  | .hbm, ⟨26, _⟩ => ⟨S_, .f32⟩
  | .hbm, ⟨27, _⟩ => ⟨S800000x128, .f32⟩
  | .hbm, ⟨28, _⟩ => ⟨S800000x128, .f32⟩
  | .hbm, ⟨29, _⟩ => ⟨S800000x1, .f32⟩
  | .hbm, ⟨30, _⟩ => ⟨S800000x128, .f32⟩
  | .hbm, ⟨31, _⟩ => ⟨S_, .f32⟩
  | .hbm, ⟨32, _⟩ => ⟨S50000x128, .f32⟩
  | .hbm, ⟨33, _⟩ => ⟨S800000x1, .i32⟩
  | .hbm, ⟨34, _⟩ => ⟨S50000x128, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | .local _ .vmem, ⟨5, _⟩ => ⟨S8000x128, .f32⟩
  | .local _ .vmem, ⟨6, _⟩ => ⟨S8000x128, .f32⟩
  | .local _ .vmem, ⟨7, _⟩ => ⟨S8000x1, .f32⟩
  | .local _ .vmem, ⟨8, _⟩ => ⟨S8000x1, .f32⟩
  | .local _ .vmem, ⟨9, _⟩ => ⟨S8000x128, .f32⟩
  | .local _ .vmem, ⟨10, _⟩ => ⟨S8000x128, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_cst : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  broadcasts_S8000x1_S8000x128 : S8000x1.Broadcasts S8000x128
  bcast_S_S50000x128 : S_.BroadcastsInDim S50000x128 (![] : Fin 0 → Fin S50000x128.rank)
  dot_S5000x256_S256x128_S5000x128_1_0_0_1_n_n_wf : DotDims.WF S5000x256 S256x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x128.size a ≤ S800000x128.size a
  hwx1_0 : ∀ i : grid1.Coords, EltTy.bits .f32 = 32 ∨ (Rect.block (s := S800000x128) S8000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x1.size a ≤ S800000x1.size a
  hwx1_1 : ∀ i : grid1.Coords, EltTy.bits .f32 = 32 ∨ (Rect.block (s := S800000x1) S8000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8000x128.size a ≤ S800000x128.size a
  hwx1_2 : ∀ i : grid1.Coords, EltTy.bits .f32 = 32 ∨ (Rect.block (s := S800000x128) S8000x128.size (cc1_transform_2 i) (hinb1_2 i)).WholeWords (EltTy.packing .f32)

variable [Facts₀]

def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v1) S8000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S8000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S8000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x256 : Shape := ⟨2, ![50000, 256]⟩
abbrev S256x128 : Shape := ⟨2, ![256, 128]⟩
abbrev S800000 : Shape := ⟨1, ![800000]⟩
abbrev S50000x128 : Shape := ⟨2, ![50000, 128]⟩
abbrev S_ : Shape := ⟨0, ![]⟩
abbrev S800000x1 : Shape := ⟨2, ![800000, 1]⟩
abbrev S800000x128 : Shape := ⟨2, ![800000, 128]⟩

abbrev nBuf : Space → Nat
  | .hbm => 22
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S256x128, .f32⟩
  | .hbm, ⟨2, _⟩ => ⟨S800000, .i32⟩
  | .hbm, ⟨3, _⟩ => ⟨S800000, .i32⟩
  | .hbm, ⟨4, _⟩ => ⟨S800000, .f32⟩
  | .hbm, ⟨5, _⟩ => ⟨S50000x128, .f32⟩
  | .hbm, ⟨6, _⟩ => ⟨S_, .i32⟩
  | .hbm, ⟨7, _⟩ => ⟨S800000, .i32⟩
  | .hbm, ⟨8, _⟩ => ⟨S800000, .i1⟩
  | .hbm, ⟨9, _⟩ => ⟨S_, .i32⟩
  | .hbm, ⟨10, _⟩ => ⟨S800000, .i32⟩
  | .hbm, ⟨11, _⟩ => ⟨S800000, .i32⟩
  | .hbm, ⟨12, _⟩ => ⟨S800000, .i32⟩
  | .hbm, ⟨13, _⟩ => ⟨S800000x1, .i32⟩
  | .hbm, ⟨14, _⟩ => ⟨S800000x128, .f32⟩
  | .hbm, ⟨15, _⟩ => ⟨S800000x1, .f32⟩
  | .hbm, ⟨16, _⟩ => ⟨S800000x128, .f32⟩
  | .hbm, ⟨17, _⟩ => ⟨S800000x128, .f32⟩
  | .hbm, ⟨18, _⟩ => ⟨S_, .f32⟩
  | .hbm, ⟨19, _⟩ => ⟨S50000x128, .f32⟩
  | .hbm, ⟨20, _⟩ => ⟨S800000x1, .i32⟩
  | .hbm, ⟨21, _⟩ => ⟨S50000x128, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  dot_S50000x256_S256x128_S50000x128_1_0_0_1_n_n_wf : DotDims.WF S50000x256 S256x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.LibRowTile.lean ====
/-
  A row tile of a matrix product is the product of the row tile.

  For a plain two-dimensional contraction (left operand [rows, K] contracted on its second axis, right operand
  [K, n] on its first, no batch axes) the result element at (r, c) is the sum over k of lhs (r, k) * rhs (k, c).
  So if a tile [m, K] of a taller left operand [M, K] holds, on its row r, the taller operand's row i, then the
  tile's product at (r, c) and the whole product at (i, c) are the same sum. The two contractions are given by
  their own dimension records, whose contraction index types differ; both sums are re-indexed over Fin K.
-/
import Idealize.ShloMosaic.PureOps.Ideal.Laws
import Idealize.ShloMosaic.Lib.ValueIdx

open scoped BigOperators

namespace Cert.Lib

open Idealize.ShloMosaic Idealize.ShloMosaic.ValueIdx

/-- A coordinate of an index depends on the axis only through the axis's number. -/
theorem idx_val_congr {s : Shape} (j : s.Idx) {p q : Nat} (hp : p < s.rank) (hq : q < s.rank) (h : p = q) :
    (j ⟨p, hp⟩).val = (j ⟨q, hq⟩).val := by subst h; rfl

section Axes

variable {sl sr so : Shape} (d : DotDims sl sr so)

/-- With no batch axes and one free axis a on the left, the left operand's index on a is the result index's
    first coordinate. -/
theorem lhsIdx_val_of_free {a : Fin sl.rank} (hb : d.lhsBatch = []) (hn : d.lhsNonContracting = [a])
    (j : so.Idx) (k : d.contr.Idx) (h0 : 0 < so.rank) : (d.lhsIdx j k a).val = (j ⟨0, h0⟩).val := by
  have hnb : a ∉ d.lhsBatch := by rw [hb]; simp
  have hmem : a ∈ d.lhsNonContracting := by rw [hn]; simp
  unfold DotDims.lhsIdx
  rw [dif_neg hnb, dif_pos hmem]
  simp only [Fin.val_cast]
  exact idx_val_congr j _ _ (by simp [hb, hn])

/-- With no batch axes, one free axis on the left and one free axis a on the right, the right operand's index on
    a is the result index's second coordinate. -/
theorem rhsIdx_val_of_free {a : Fin sr.rank} {al : Fin sl.rank} (hlb : d.lhsBatch = []) (hln : d.lhsNonContracting = [al])
    (hb : d.rhsBatch = []) (hn : d.rhsNonContracting = [a])
    (j : so.Idx) (k : d.contr.Idx) (h1 : 1 < so.rank) : (d.rhsIdx j k a).val = (j ⟨1, h1⟩).val := by
  have hnb : a ∉ d.rhsBatch := by rw [hb]; simp
  have hmem : a ∈ d.rhsNonContracting := by rw [hn]; simp
  unfold DotDims.rhsIdx
  rw [dif_neg hnb, dif_pos hmem]
  simp only [Fin.val_cast]
  exact idx_val_congr j _ _ (by simp [hlb, hln, hn])

end Axes

/-- The dimension numbers of a plain product [rows, K] · [K, n]: contract the left operand's second axis with the
    right operand's first; the free axes are the left's first and the right's second; no batch axes. -/
structure IsPlain {a K n : Nat} (d : DotDims ⟨2, ![a, K]⟩ ⟨2, ![K, n]⟩ ⟨2, ![a, n]⟩) : Prop where
  lc : d.lhsContracting = [(1 : Fin 2)]
  rc : d.rhsContracting = [(0 : Fin 2)]
  ln : d.lhsNonContracting = [(0 : Fin 2)]
  rn : d.rhsNonContracting = [(1 : Fin 2)]
  lb : d.lhsBatch = []
  rb : d.rhsBatch = []
  rank : d.contr.rank = 1
  size : d.contr.size ⟨0, by omega⟩ = K

section Plain

variable {a K n : Nat} {d : DotDims ⟨2, ![a, K]⟩ ⟨2, ![K, n]⟩ ⟨2, ![a, n]⟩}

/-- The left operand is read at (row of the result, k). -/
theorem IsPlain.lhsIdx_eq (h : IsPlain d) (j : (⟨2, ![a, n]⟩ : Shape).Idx) (k : Fin K) :
    d.lhsIdx j ((contrEquiv1 d K h.rank h.size).symm k) = ix2 (j 0) k := by
  funext ax; apply Fin.ext
  match ax with
  | ⟨0, _⟩ => exact lhsIdx_val_of_free d (a := (0 : Fin 2)) h.lb h.ln j _ Nat.zero_lt_two
  | ⟨1, _⟩ =>
    exact (d.lhsIdx_val_of_single (cl := (1 : Fin 2)) h.lc j _).trans (contrEquiv1_symm_val d K h.rank h.size k)

/-- The right operand is read at (k, column of the result). -/
theorem IsPlain.rhsIdx_eq (h : IsPlain d) (j : (⟨2, ![a, n]⟩ : Shape).Idx) (k : Fin K) :
    d.rhsIdx j ((contrEquiv1 d K h.rank h.size).symm k) = ix2 k (j 1) := by
  funext ax; apply Fin.ext
  match ax with
  | ⟨0, _⟩ =>
    exact (d.rhsIdx_val_of_single (cr := (0 : Fin 2)) h.rc j _).trans (contrEquiv1_symm_val d K h.rank h.size k)
  | ⟨1, _⟩ => exact rhsIdx_val_of_free d (a := (1 : Fin 2)) (al := (0 : Fin 2)) h.lb h.ln h.rb h.rn j _ Nat.one_lt_two

/-- A plain product's contraction sum, over the contracted coordinate itself. -/
theorem IsPlain.sum_eq (h : IsPlain d) (l : (⟨2, ![a, K]⟩ : Shape).Idx → EReal) (r : (⟨2, ![K, n]⟩ : Shape).Idx → EReal)
    (j : (⟨2, ![a, n]⟩ : Shape).Idx) :
    ∑ k : d.contr.Idx, l (d.lhsIdx j k) * r (d.rhsIdx j k) = ∑ k : Fin K, l (ix2 (j 0) k) * r (ix2 k (j 1)) := by
  rw [← Equiv.sum_comp (contrEquiv1 d K h.rank h.size).symm]
  exact Finset.sum_congr rfl fun k _ => congrArg₂ (· * ·) (congrArg l (h.lhsIdx_eq j k)) (congrArg r (h.rhsIdx_eq j k))

end Plain

/-- A ROW TILE OF A PRODUCT IS THE PRODUCT OF THE ROW TILE: if row (y 0) of the tile lt is row (i 0) of the whole
    left operand l, and y, i name the same column, the two contraction sums are equal. -/
theorem sum_rowTile {m M K n : Nat}
    {dT : DotDims ⟨2, ![m, K]⟩ ⟨2, ![K, n]⟩ ⟨2, ![m, n]⟩} {dW : DotDims ⟨2, ![M, K]⟩ ⟨2, ![K, n]⟩ ⟨2, ![M, n]⟩}
    (hT : IsPlain dT) (hW : IsPlain dW)
    (lt : (⟨2, ![m, K]⟩ : Shape).Idx → EReal) (l : (⟨2, ![M, K]⟩ : Shape).Idx → EReal) (r : (⟨2, ![K, n]⟩ : Shape).Idx → EReal)
    (y : (⟨2, ![m, n]⟩ : Shape).Idx) (i : (⟨2, ![M, n]⟩ : Shape).Idx)
    (hrow : ∀ k : Fin K, lt (ix2 (y 0) k) = l (ix2 (i 0) k)) (hcol : y 1 = i 1) :
    ∑ k : dT.contr.Idx, lt (dT.lhsIdx y k) * r (dT.rhsIdx y k) = ∑ k : dW.contr.Idx, l (dW.lhsIdx i k) * r (dW.rhsIdx i k) := by
  rw [hT.sum_eq lt r y, hW.sum_eq l r i]
  exact Finset.sum_congr rfl fun k _ => by rw [hrow k, hcol]

end Cert.Lib
-- ==== Proof.LibLayoutColumn.lean ====
/-
  Layout operations on a column, read at an index: the forms a "sum the rows, keep the axis" computation meets.

  A vector of length `a` viewed as an `[a, 1]` column, a column broadcast across `b` lanes, a column placed under a
  leading unit axis, an array with two leading unit axes flattened, and the all-unit shapes a reduction to one element
  passes through.  Each reads the operand at the index with the same row-major position (a cast) or at the index with
  the unit axes at zero (a broadcast).  Last, a sum over the indices of a `[1, a, 1]` array is the sum over its one
  free coordinate.  Every statement holds at any extents.
-/
import Idealize.ShloMosaic.Lib.ValueIdx
import Idealize.ShloMosaic.Lib.Pipeline.Value

noncomputable section

open scoped BigOperators

namespace Idealize.ShloMosaic.ValueIdx

open Idealize.ShloMosaic

variable {α : Type}

/-- A `[1, 1, a]` array cast to `[a]` reads, at `i`, the operand at `(0, 0, i)`. -/
theorem shapeCast_11a_a_apply {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp only [Nat.zero_mul, Nat.zero_add])

/-- An `[a]` array cast to an `[a, 1]` column reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to `[1, a, 1]` reads, at `(u, p, w)`, the operand at `(p, 0)`. -/
theorem shapeCast_a1_1a1_apply {a : ℕ} (x : (⟨2, ![a, 1]⟩ : Shape).Idx → α)
    (h : (⟨2, ![a, 1]⟩ : Shape).ShapeCasts ⟨3, ![1, a, 1]⟩) (u : Fin 1) (p : Fin a) (w : Fin 1) :
    shapeCast ⟨3, ![1, a, 1]⟩ x h (ix3 u p w) = x (ix2 p (0 : Fin 1)) :=
  shapeCast_apply x h _ _ (by
    have hu : u.val = 0 := by omega
    have hw : w.val = 0 := by omega
    rw [Shape.rowMajor_val_three, Shape.rowMajor_val_two]
    show p.val * 1 + 0 = (u.val * a + p.val) * 1 + w.val
    rw [hu, hw, Nat.zero_mul, Nat.zero_add])

/-- A one-element array cast to `[1, 1, 1]` reads its one element. -/
theorem shapeCast_1_111_apply (x : (⟨1, ![1]⟩ : Shape).Idx → α)
    (h : (⟨1, ![1]⟩ : Shape).ShapeCasts ⟨3, ![1, 1, 1]⟩) (u v w : Fin 1) :
    shapeCast ⟨3, ![1, 1, 1]⟩ x h (ix3 u v w) = x (ix1 (0 : Fin 1)) :=
  shapeCast_apply x h _ _ (by
    have hu : u.val = 0 := by omega
    have hv : v.val = 0 := by omega
    have hw : w.val = 0 := by omega
    rw [Shape.rowMajor_val_three, Shape.rowMajor_val_one]
    show 0 = (u.val * 1 + v.val) * 1 + w.val
    rw [hu, hv, hw])

/-- A `[1, 1]` array cast to `[1, 1, 1]` reads its one element. -/
theorem shapeCast_11_111_apply (x : (⟨2, ![1, 1]⟩ : Shape).Idx → α)
    (h : (⟨2, ![1, 1]⟩ : Shape).ShapeCasts ⟨3, ![1, 1, 1]⟩) (u v w : Fin 1) :
    shapeCast ⟨3, ![1, 1, 1]⟩ x h (ix3 u v w) = x (ix2 (0 : Fin 1) (0 : Fin 1)) :=
  shapeCast_apply x h _ _ (by
    have hu : u.val = 0 := by omega
    have hv : v.val = 0 := by omega
    have hw : w.val = 0 := by omega
    rw [Shape.rowMajor_val_three, Shape.rowMajor_val_two]
    show 0 * 1 + 0 = (u.val * 1 + v.val) * 1 + w.val
    rw [hu, hv, hw])

/-- An `[a, 1]` column broadcast to `[a, b]` reads, at `(p, c)`, the column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1, 1]` array broadcast to `[1, 1, b]` reads its one element in every lane. -/
theorem broadcastTo_111_11b_apply {b : ℕ} (v : (⟨3, ![1, 1, 1]⟩ : Shape).Idx → α)
    (h : (⟨3, ![1, 1, 1]⟩ : Shape).Broadcasts ⟨3, ![1, 1, b]⟩) (u w : Fin 1) (l : Fin b) :
    broadcastTo ⟨3, ![1, 1, b]⟩ v h (ix3 u w l) = v (ix3 (0 : Fin 1) (0 : Fin 1) (0 : Fin 1)) := by
  refine broadcastTo_apply v h (ix3 u w l) (ix3 (0 : Fin 1) (0 : Fin 1) (0 : Fin 1)) fun ax => ?_
  match ax with
  | ⟨0, _⟩ => rfl
  | ⟨1, _⟩ => rfl
  | ⟨2, _⟩ => rfl

/-- The indices of a `[1, a, 1]` array are its one free coordinate … -/
def idxEquiv1a1 {a : ℕ} : (⟨3, ![1, a, 1]⟩ : Shape).Idx ≃ Fin a where
  toFun i := i 1
  invFun p := ix3 (0 : Fin 1) p (0 : Fin 1)
  left_inv i := by
    funext ax
    match ax with
    | ⟨0, _⟩ => exact Fin.ext (by have h : (i 0).val < 1 := (i 0).isLt; show 0 = (i 0).val; omega)
    | ⟨1, _⟩ => rfl
    | ⟨2, _⟩ => exact Fin.ext (by have h : (i 2).val < 1 := (i 2).isLt; show 0 = (i 2).val; omega)
  right_inv _ := rfl

/-- … so a sum over them is the sum over that coordinate. -/
theorem sum_idx_1a1 {M : Type*} [AddCommMonoid M] {a : ℕ} (f : (⟨3, ![1, a, 1]⟩ : Shape).Idx → M) :
    ∑ i, f i = ∑ p : Fin a, f (ix3 (0 : Fin 1) p (0 : Fin 1)) := by
  rw [← Equiv.sum_comp (idxEquiv1a1 (a := a)).symm f]
  rfl

end Idealize.ShloMosaic.ValueIdx

end
-- ==== Proof.Spec.lean ====
/-
  The arithmetic of a graph-convolution layer, as functions of whole arrays over the extended reals.

  A dense projection (the product of an [M, K] array and a [K, n] array) and an edge weighting (each row of an
  [E, D] array multiplied by that row's entry of an [E, 1] column).  A product on the host and a product of a row
  tile into a zero accumulator are both the plain contraction sum over the K coordinates; a host multiplication by a
  broadcast column and a tile's multiplication by its broadcast column are both the row scaling.
-/
import Idealize.ShloMosaic.PureOps.Ideal.Laws
import Idealize.ShloMosaic.Lib.ValueIdx
import Idealize.ShloMosaic.Lib.Pipeline.Value
import proofs.«425642_j35545149342388_1_alg».proof.Proof.LibRowTile
import proofs.«425642_j35545149342388_1_alg».proof.Proof.LibLayoutColumn

noncomputable section

open scoped BigOperators

namespace Cert.Spec

open Idealize.ShloMosaic Idealize.ShloMosaic.ValueIdx Cert.Lib

/-- The product of an [M, K] array and a [K, n] array: entry (r, c) is the sum over k of x (r, k) · w (k, c). -/
def matProd {M K n : ℕ} (x : (⟨2, ![M, K]⟩ : Shape).Idx → EReal) (w : (⟨2, ![K, n]⟩ : Shape).Idx → EReal) :
    (⟨2, ![M, n]⟩ : Shape).Idx → EReal :=
  fun i => ∑ k : Fin K, x (ix2 (i 0) k) * w (ix2 k (i 1))

/-- Each row of an [E, D] array scaled by that row's entry of an [E, 1] column. -/
def scaleRows {E D : ℕ} (g : (⟨2, ![E, D]⟩ : Shape).Idx → EReal) (v : (⟨2, ![E, 1]⟩ : Shape).Idx → EReal) :
    (⟨2, ![E, D]⟩ : Shape).Idx → EReal :=
  fun i => g i * v (ix2 (i 0) (0 : Fin 1))

/-- A plain host product is the contraction sum at every entry. -/
theorem dotGeneral_eq_matProd {M K n : ℕ} {d : DotDims ⟨2, ![M, K]⟩ ⟨2, ![K, n]⟩ ⟨2, ![M, n]⟩} (h : IsPlain d)
    (prec : Option ContractPrecision) (x : FVec Ideal ⟨2, ![M, K]⟩ .f32) (w : FVec Ideal ⟨2, ![K, n]⟩ .f32) :
    Host.dotGeneral (F := Ideal) d prec x w = matProd x w :=
  funext fun j => (Ideal.dotGeneral_apply d prec .single x w j).trans (h.sum_eq x w j)

/-- A row tile's product into the zero accumulator, after its operands' change of format (the identity on the
    extended reals), is the contraction sum over the tile's own row. -/
theorem matmul_tile_apply {m K n : ℕ} {d : DotDims ⟨2, ![m, K]⟩ ⟨2, ![K, n]⟩ ⟨2, ![m, n]⟩} (h : IsPlain d)
    (prec : Option ContractPrecision) (xt : FVec Ideal ⟨2, ![m, K]⟩ .f32) (w : FVec Ideal ⟨2, ![K, n]⟩ .f32)
    (hb : FTy.bf16.bits < FTy.f32.bits) (y : (⟨2, ![m, n]⟩ : Shape).Idx) :
    matmul (F := Ideal) d prec (truncf .bf16 xt hb) (truncf .bf16 w hb) (constant ⟨2, ![m, n]⟩ .f32 0x00000000#32) y
      = ∑ k : Fin K, xt (ix2 (y 0) k) * w (ix2 k (y 1)) :=
  (Ideal.matmul_constant_zero_apply d prec (truncf .bf16 xt hb) (truncf .bf16 w hb) y).trans
    (h.sum_eq (fun i => xt i) (fun i => w i) y)

/-- A host multiplication by a column broadcast across the lanes is the row scaling. -/
theorem mulf_bcast_eq_scaleRows {E D : ℕ} (g : FVec Ideal ⟨2, ![E, D]⟩ .f32) (v : FVec Ideal ⟨2, ![E, 1]⟩ .f32)
    (h : (⟨2, ![E, 1]⟩ : Shape).BroadcastsInDim ⟨2, ![E, D]⟩ ![0, 1]) :
    mulf g (broadcastInDim ⟨2, ![E, D]⟩ ![0, 1] h v) = scaleRows g v := by
  funext i
  rw [mulf_apply]
  unfold scaleRows
  refine congrArg (g i * ·) ?_
  refine broadcastInDim_apply _ h v i _ fun a => ?_
  match a with
  | ⟨0, _⟩ =>
    show (i 0).val = if E = 1 then 0 else (i 0).val
    split
    · have hlt : (i 0).val < E := (i 0).isLt
      omega
    · rfl
  | ⟨1, _⟩ => rfl

/-- A tile's multiplication by its column broadcast across the lanes (both operands through an identity cast) is,
    at each entry, the entry times its row's column entry. -/
theorem scale_tile_apply {e D : ℕ} (g : FVec Ideal ⟨2, ![e, D]⟩ .f32) (v : FVec Ideal ⟨2, ![e, 1]⟩ .f32)
    (hg : (⟨2, ![e, D]⟩ : Shape).ShapeCasts ⟨2, ![e, D]⟩) (hv : (⟨2, ![e, 1]⟩ : Shape).ShapeCasts ⟨2, ![e, 1]⟩)
    (hb : (⟨2, ![e, 1]⟩ : Shape).Broadcasts ⟨2, ![e, D]⟩) (y : (⟨2, ![e, D]⟩ : Shape).Idx) :
    mulf (shapeCast ⟨2, ![e, D]⟩ g hg) (broadcastTo ⟨2, ![e, D]⟩ (shapeCast ⟨2, ![e, 1]⟩ v hv) hb) y
      = g y * v (ix2 (y 0) (0 : Fin 1)) := by
  rw [mulf_apply, shapeCast_self, shapeCast_self]
  refine congrArg (g y * ·) ?_
  rw [eq_ix2 y]
  exact broadcastTo_a1_ab_apply v hb (y 0) (y 1)

end Cert.Spec

end
-- ==== Proof.Region0.lean ====
/-
  The dense projection, read off the first pipelined region.

  The region walks ten grid points; point t loads rows 5000·t … 5000·t + 4999 of the [50000, 256] left operand and
  the whole [256, 128] right operand, multiplies them into a zero accumulator and writes the [5000, 128] product back
  as rows 5000·t … of the output array.  A row tile's product is, entry by entry, the whole product's entry on the
  same row, so every write-back is its block of ONE array — the whole product — and the ten blocks cover the output:
  after the region the output array holds the product of the two arrays the region found at its inputs.
-/
import proofs.«425642_j35545149342388_1_alg».proof.Proof.Gen.KernelIdeal.Frame
import proofs.«425642_j35545149342388_1_alg».proof.Proof.Spec
import Idealize.ShloMosaic.Lib.Pipeline.Value

set_option maxRecDepth 16384

noncomputable section

open scoped BigOperators

namespace Cert.KernelIdeal.Dense

open Cert.KernelIdeal Cert.KernelIdeal.Gen Cert.Spec Cert.Lib
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The tile's contraction is a plain [5000, 256] · [256, 128] product. -/
theorem tile_plain : IsPlain dot_S5000x256_S256x128_S5000x128_1_0_0_1_n_n := ⟨rfl, rfl, rfl, rfl, rfl, rfl, rfl, rfl⟩

/-- The left operand, the right operand and the left operand's block at a point, at their literal types. -/
abbrev lhsArr (c : Dev nD) : Vec Ideal S50000x256 .f32 := V c main_arg0
abbrev rhsArr (c : Dev nD) : Vec Ideal S256x128 .f32 := V c main_arg1
abbrev lhsBlk (c : Dev nD) (t : Fin cfg0.N) : Vec Ideal S5000x256 .f32 := iblk0 V c 0 t
abbrev rhsBlk (c : Dev nD) (t : Fin cfg0.N) : Vec Ideal S256x128 .f32 := iblk0 V c 1 t

/-- The body's one store: at each entry the contraction sum over the tile's own row. -/
theorem pay_apply (x0 : Vec Ideal S5000x256 .f32) (x1 : Vec Ideal S256x128 .f32) (y : S5000x128.Idx) :
    k0_pay1 x0 x1 y = ∑ k : Fin 256, x0 (ix2 (y 0) k) * x1 (ix2 k (y 1)) := by
  unfold k0_pay1
  exact matmul_tile_apply tile_plain none x0 x1 bitsLt_bf16_f32 y

/-- The printed index maps over the grid: the left operand's block moves down with the output's, neither moves
    sideways, and the right operand's block stays. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- Row r of the left operand's block at point t is the row of the array that the output's block at t puts its
    own row r on. -/
theorem lhsBlk_apply (c : Dev nD) (t : Fin cfg0.N) (j : S5000x128.Idx) (k : Fin 256) :
    lhsBlk V c t (ix2 (j 0) k) = lhsArr V c (ix2 ((((cfg0.win 2).blk t).view.emb j) 0) k) := by
  obtain ⟨e0, e1, e2, e3, e4, e5⟩ := idx_facts t
  show V c main_arg0 (((cfg0.win 0).blk t).view.emb (ix2 (j 0) k)) = V c main_arg0 (ix2 ((((cfg0.win 2).blk t).view.emb j) 0) k)
  refine congrArg (V c main_arg0) ?_
  funext a; apply Fin.ext
  match a with
  | ⟨0, _⟩ => show win0_0.index t (0 : Fin 2) * 5000 + 1 * (j 0).val = win0_2.index t (0 : Fin 2) * 5000 + 1 * (j 0).val; omega
  | ⟨1, _⟩ => show win0_0.index t (1 : Fin 2) * 256 + 1 * k.val = k.val; omega

/-- The right operand's block is the whole right operand, and the output's block keeps the column. -/
theorem rhsBlk_apply (c : Dev nD) (t : Fin cfg0.N) (j : S5000x128.Idx) (k : Fin 256) :
    rhsBlk V c t (ix2 k (j 1)) = rhsArr V c (ix2 k ((((cfg0.win 2).blk t).view.emb j) 1)) := by
  obtain ⟨e0, e1, e2, e3, e4, e5⟩ := idx_facts t
  show V c main_arg1 (((cfg0.win 1).blk t).view.emb (ix2 k (j 1))) = V c main_arg1 (ix2 k ((((cfg0.win 2).blk t).view.emb j) 1))
  refine congrArg (V c main_arg1) ?_
  funext a; apply Fin.ext
  match a with
  | ⟨0, _⟩ => show win0_1.index t (0 : Fin 2) * 256 + 1 * k.val = k.val; omega
  | ⟨1, _⟩ => show win0_1.index t (1 : Fin 2) * 128 + 1 * (j 1).val = win0_2.index t (1 : Fin 2) * 128 + 1 * (j 1).val; omega

/-- What point t writes back is block t of the whole product. -/
theorem flushed_eq (c : Dev nD) (t : Fin cfg0.N) :
    (dat0 V c).flushed 2 t = ((cfg0.win 2).blk t).view.read (Elt Ideal) (matProd (lhsArr V c) (rhsArr V c)) := by
  show (cfg0.win 2).cut (grid0.coords t) ((dat0 V c).after 2 t) = _
  rw [after0_2]
  unfold out0_2
  rw [View.canon_unit_zero hz]
  simp only [View.ld_unit_zero (S := S5000x256) hz, View.ld_unit_zero (S := S256x128) hz]
  funext j
  show k0_pay1 (lhsBlk V c t) (rhsBlk V c t) j = matProd (lhsArr V c) (rhsArr V c) (((cfg0.win 2).blk t).view.emb j)
  rw [pay_apply]
  unfold matProd
  exact Finset.sum_congr rfl fun k _ => by rw [lhsBlk_apply V c t j k, rhsBlk_apply V c t j k]

/-- An index of the output array is in point t's block iff each coordinate is in the block's range on its axis. -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v0).slice (win0_2.rect t)).set ↔ _
  rw [View.set_slice_whole, Rect.mem_set_unit]
  exact Iff.rfl

/-- Every index of the output array lies in the block of the point its row, divided by 5000, names. -/
theorem cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 10 := N_0
  let t : Fin cfg0.N := ⟨(i 0).val / 5000, by rw [hN]; omega⟩
  obtain ⟨e0, e1, e2, e3, e4, e5⟩ := idx_facts t
  have e4' : win0_2.index t (0 : Fin 2) = (i 0).val / 5000 := e4
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- After the region the output array holds the product of the arrays the region found at its two inputs. -/
theorem final (c : Dev nD) : (dat0 V c).arrAt 2 cfg0.N = matProd (lhsArr V c) (rhsArr V c) :=
  (dat0 V c).arrAt_eq_of_cover 2 (matProd (lhsArr V c) (rhsArr V c)) (fun t _ => flushed_eq V c t) cover

end Cert.KernelIdeal.Dense

end
-- ==== Proof.Region1.lean ====
/-
  The edge weighting, read off the second pipelined region.

  The region walks a hundred grid points; point t loads rows 8000·t … 8000·t + 7999 of the [800000, 128] array of
  gathered rows and the same rows of the [800000, 1] column of edge weights, multiplies each row by its weight and
  writes the [8000, 128] block back at the same rows of the output.  Every write-back is its block of ONE array —
  the gathered rows, each scaled by its own weight — and the hundred blocks cover the output.
-/
import proofs.«425642_j35545149342388_1_alg».proof.Proof.Gen.KernelIdeal.Frame
import proofs.«425642_j35545149342388_1_alg».proof.Proof.Spec
import Idealize.ShloMosaic.Lib.Pipeline.Value

set_option maxRecDepth 16384

noncomputable section

open scoped BigOperators

namespace Cert.KernelIdeal.Weight

open Cert.KernelIdeal Cert.KernelIdeal.Gen Cert.Spec Cert.Lib
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The gathered rows, the column of weights, and their blocks at a point, at their literal types. -/
abbrev rowsArr (c : Dev nD) : Vec Ideal S800000x128 .f32 := V c main_v1
abbrev colArr (c : Dev nD) : Vec Ideal S800000x1 .f32 := V c main_v2
abbrev rowsBlk (c : Dev nD) (t : Fin cfg1.N) : Vec Ideal S8000x128 .f32 := iblk1 V c 0 t
abbrev colBlk (c : Dev nD) (t : Fin cfg1.N) : Vec Ideal S8000x1 .f32 := iblk1 V c 1 t

/-- The body's one store: each entry of the rows' block times its row's entry of the column's block. -/
theorem pay_apply (x0 : Vec Ideal S8000x128 .f32) (x1 : Vec Ideal S8000x1 .f32) (y : S8000x128.Idx) :
    k1_pay1 x0 x1 y = x0 y * x1 (ix2 (y 0) (0 : Fin 1)) := by
  unfold k1_pay1
  exact scale_tile_apply x0 x1 shapeCasts_S8000x128_S8000x128 shapeCasts_S8000x1_S8000x1 broadcasts_S8000x1_S8000x128 y

/-- The printed index maps over the grid: all three blocks move down together, and none moves sideways. -/
theorem idx_facts : ∀ t : Fin cfg1.N, win1_0.index t (0 : Fin 2) = win1_2.index t (0 : Fin 2)
    ∧ win1_0.index t (1 : Fin 2) = win1_2.index t (1 : Fin 2)
    ∧ win1_1.index t (0 : Fin 2) = win1_2.index t (0 : Fin 2)
    ∧ win1_1.index t (1 : Fin 2) = 0
    ∧ win1_2.index t (0 : Fin 2) = t.val
    ∧ win1_2.index t (1 : Fin 2) = 0 :=
  (by decide +kernel : ∀ t : Fin grid1.N, _)

/-- The rows' block at a point sits in its array where the output's block sits in the output. -/
theorem rowsBlk_apply (c : Dev nD) (t : Fin cfg1.N) (j : S8000x128.Idx) :
    rowsBlk V c t j = rowsArr V c (((cfg1.win 2).blk t).view.emb j) := by
  obtain ⟨e0, e1, e2, e3, e4, e5⟩ := idx_facts t
  show V c main_v1 (((cfg1.win 0).blk t).view.emb j) = V c main_v1 (((cfg1.win 2).blk t).view.emb j)
  refine congrArg (V c main_v1) ?_
  funext a; apply Fin.ext
  match a with
  | ⟨0, _⟩ => show win1_0.index t (0 : Fin 2) * 8000 + 1 * (j 0).val = win1_2.index t (0 : Fin 2) * 8000 + 1 * (j 0).val; omega
  | ⟨1, _⟩ => show win1_0.index t (1 : Fin 2) * 128 + 1 * (j 1).val = win1_2.index t (1 : Fin 2) * 128 + 1 * (j 1).val; omega

/-- Row r of the column's block at a point is the weight of the edge the output's block puts its row r on. -/
theorem colBlk_apply (c : Dev nD) (t : Fin cfg1.N) (j : S8000x128.Idx) :
    colBlk V c t (ix2 (j 0) (0 : Fin 1)) = colArr V c (ix2 ((((cfg1.win 2).blk t).view.emb j) 0) (0 : Fin 1)) := by
  obtain ⟨e0, e1, e2, e3, e4, e5⟩ := idx_facts t
  show V c main_v2 (((cfg1.win 1).blk t).view.emb (ix2 (j 0) (0 : Fin 1))) = V c main_v2 (ix2 ((((cfg1.win 2).blk t).view.emb j) 0) (0 : Fin 1))
  refine congrArg (V c main_v2) ?_
  funext a; apply Fin.ext
  match a with
  | ⟨0, _⟩ => show win1_1.index t (0 : Fin 2) * 8000 + 1 * (j 0).val = win1_2.index t (0 : Fin 2) * 8000 + 1 * (j 0).val; omega
  | ⟨1, _⟩ => show win1_1.index t (1 : Fin 2) * 1 + 1 * 0 = 0; omega

/-- What point t writes back is block t of the scaled rows. -/
theorem flushed_eq (c : Dev nD) (t : Fin cfg1.N) :
    (dat1 V c).flushed 2 t = ((cfg1.win 2).blk t).view.read (Elt Ideal) (scaleRows (rowsArr V c) (colArr V c)) := by
  show (cfg1.win 2).cut (grid1.coords t) ((dat1 V c).after 2 t) = _
  rw [after1_2]
  unfold out1_2
  rw [View.canon_unit_zero hz]
  simp only [View.ld_unit_zero (S := S8000x128) hz, View.ld_unit_zero (S := S8000x1) hz]
  funext j
  show k1_pay1 (rowsBlk V c t) (colBlk V c t) j = scaleRows (rowsArr V c) (colArr V c) (((cfg1.win 2).blk t).view.emb j)
  rw [pay_apply]
  unfold scaleRows
  rw [rowsBlk_apply V c t j, colBlk_apply V c t j]

/-- An index of the output array is in point t's block iff each coordinate is in the block's range on its axis. -/
theorem mem_blk (t : Fin cfg1.N) (i : S800000x128.Idx) :
    i ∈ ((cfg1.win 2).blk t).view.set ↔ ∀ a : Fin 2, win1_2.index t a * S8000x128.size a ≤ (i a).val ∧ (i a).val < win1_2.index t a * S8000x128.size a + S8000x128.size a := by
  show i ∈ ((View.whole main_v3).slice (win1_2.rect t)).set ↔ _
  rw [View.set_slice_whole, Rect.mem_set_unit]
  exact Iff.rfl

/-- Every index of the output array lies in the block of the point its row, divided by 8000, names. -/
theorem cover (i : S800000x128.Idx) :
    ∃ t : Fin cfg1.N, (cfg1.win 2).flush t = true ∧ i ∈ ((cfg1.win 2).blk t).view.set := by
  have hi0 : (i 0).val < 800000 := (i 0).isLt
  have hi1 : (i 1).val < 128 := (i 1).isLt
  have hN : cfg1.N = 100 := N_1
  let t : Fin cfg1.N := ⟨(i 0).val / 8000, by rw [hN]; omega⟩
  obtain ⟨e0, e1, e2, e3, e4, e5⟩ := idx_facts t
  have e4' : win1_2.index t (0 : Fin 2) = (i 0).val / 8000 := e4
  refine ⟨t, flush1_2 t, ?_⟩
  rw [mem_blk]
  intro a
  match a with
  | ⟨0, _⟩ => show win1_2.index t (0 : Fin 2) * 8000 ≤ (i 0).val ∧ (i 0).val < win1_2.index t (0 : Fin 2) * 8000 + 8000; omega
  | ⟨1, _⟩ => show win1_2.index t (1 : Fin 2) * 128 ≤ (i 1).val ∧ (i 1).val < win1_2.index t (1 : Fin 2) * 128 + 128; omega

/-- After the region the output array holds the rows the region found, each scaled by its weight. -/
theorem final (c : Dev nD) : (dat1 V c).arrAt 2 cfg1.N = scaleRows (rowsArr V c) (colArr V c) :=
  (dat1 V c).arrAt_eq_of_cover 2 (scaleRows (rowsArr V c) (colArr V c)) (fun t _ => flushed_eq V c t) cover

end Cert.KernelIdeal.Weight

end
-- ==== Proof.IndexRange.lean ====
/-
  Edge endpoints as row numbers of a table of 50000 rows.

  An endpoint is a signed 32-bit word c with -50000 ≤ c < 50000.  The row it names is c itself when c is not
  negative and c + 50000 when it is (an index counted from the end); either way the row number lies in 0 … 49999,
  so the test "0 ≤ row ∧ row ≤ 49999" that guards the read of the table is passed at every edge.  A conjunction over
  a list of bits that are all set, folded from a set bit, is set.
-/
import Idealize.ShloMosaic.Lib.ReduceAll
import Idealize.ShloMosaic.Lib.StableHlo.Predicate

namespace Cert.IndexRange

open Idealize.ShloMosaic

/-- A word in [-50000, 50000), with 50000 added when it is negative, passes the test 0 ≤ · ≤ 49999. -/
theorem wrapped_inRange (c : BitVec 32) (hlo : IntOp.cmpi .sge c 4294917296#32 = 1#1) (hhi : IntOp.cmpi .slt c 50000#32 = 1#1) :
    IntOp.andi (IntOp.cmpi .sge (Scalar.select (IntOp.cmpi .slt c 0#32) (IntOp.addi c 50000#32) c) 0#32)
      (IntOp.cmpi .sle (Scalar.select (IntOp.cmpi .slt c 0#32) (IntOp.addi c 50000#32) c) 49999#32) = 1#1 := by
  have k1 : (4294917296#32 : BitVec 32).toInt = -50000 := by decide
  have k2 : (50000#32 : BitVec 32).toInt = 50000 := by decide
  have k3 : (0#32 : BitVec 32).toInt = 0 := by decide
  have k4 : (49999#32 : BitVec 32).toInt = 49999 := by decide
  simp only [IntOp.cmpi, StableHlo.Predicate.ofBool_eq_one_iff, BitVec.sle, BitVec.slt, decide_eq_true_eq, k1, k2] at hlo hhi
  rw [IntOp.andi_eq_one]
  by_cases hneg : c.toInt < 0
  · have hs : IntOp.cmpi .slt c 0#32 = 1#1 := by
      simp only [IntOp.cmpi, StableHlo.Predicate.ofBool_eq_one_iff, BitVec.slt, decide_eq_true_eq, k3]; exact hneg
    have hadd : (IntOp.addi c 50000#32).toInt = c.toInt + 50000 := by
      show (c + 50000#32).toInt = _
      rw [BitVec.toInt_add, k2]
      exact Int.bmod_eq_of_le (by omega) (by omega)
    have hsel : Scalar.select (IntOp.cmpi .slt c 0#32) (IntOp.addi c 50000#32) c = IntOp.addi c 50000#32 := by
      rw [hs]; rfl
    rw [hsel]
    simp only [IntOp.cmpi, StableHlo.Predicate.ofBool_eq_one_iff, BitVec.sle, decide_eq_true_eq, k3, k4, hadd]
    omega
  · have hs : IntOp.cmpi .slt c 0#32 ≠ 1#1 := by
      simp only [IntOp.cmpi, ne_eq, StableHlo.Predicate.ofBool_eq_one_iff, BitVec.slt, decide_eq_true_eq, k3]; exact hneg
    have hsel : Scalar.select (IntOp.cmpi .slt c 0#32) (IntOp.addi c 50000#32) c = c := by
      unfold Scalar.select; exact if_neg hs
    rw [hsel]
    simp only [IntOp.cmpi, StableHlo.Predicate.ofBool_eq_one_iff, BitVec.sle, decide_eq_true_eq, k3, k4]
    omega

/-- A conjunction folded from a set bit over a list of bits that are all set is set. -/
theorem foldl_andi_ones {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self]
    exact foldl_andi_ones f l fun n hn => h n (List.mem_cons_of_mem _ hn)

/-- A reduction by "and" from a set bit of an array of bits that are all set is set at every result index. -/
theorem reduce_andi_ones {s t u : Shape} {axes : List (Fin s.rank)} (x : s.Idx → BitVec 1) (init : u.Idx → BitVec 1)
    (h : s.ReducesTo axes t) (hu : 0 < u.numel) (hinit : ∀ k, init k = 1#1) (hx : ∀ i, x i = 1#1) (j : t.Idx) :
    Host.reduce IntOp.andi x init h hu j = 1#1 := by
  rw [Host.reduce_eq_foldl, hinit]
  exact foldl_andi_ones x _ fun n _ => hx n

end Cert.IndexRange
-- ==== Proof.LibTRefCast.lean ====
/-
  Typed references of a called function's values: a value written through a typed reference and read back through
  the same reference is the value, whatever proofs the two spellings of the reference carry.
-/
import Idealize.ShloMosaic.Lib.StableHlo

namespace Cert.Lib

open Idealize.ShloMosaic Idealize.ShloMosaic.StableHlo

/-- Contents stored at the value's type as contents of the buffer and read back at the value's type are unchanged:
    the two transports along the reference's type equation cancel. -/
theorem ofBuf_toBuf {sig : RefSig} {Val : EltTy → Type} {T : BufTy} (x : TRef sig T) (v : T.Contents Val) :
    x.ofBuf (x.toBuf v) = v := by
  obtain ⟨r, h, a, b⟩ := x
  subst h
  rfl

end Cert.Lib
-- ==== Proof.KernelChain.lean ====
/-
  The kernel's program, as four steps over whole arrays.

  Between its two pipelined regions the program reads one row of the projection per edge: the row the edge's column
  endpoint names (50000 added to a negative endpoint), replaced by a fill value wherever that row number fails the
  test 0 ≤ row ≤ 49999.  For endpoints in [-50000, 50000) the test never fails, so the read is the plain row read.
  Followed through the program's segments — the first region leaving the projection, the host reading the rows
  and laying the weights out as a column, the second region scaling each row by its weight, the host adding the rows
  up per row endpoint into zeros — the result buffer ends at: project, read a row per edge, scale, accumulate.
-/
import proofs.«425642_j35545149342388_1_alg».proof.Proof.Gen.KernelIdeal.Frame
import proofs.«425642_j35545149342388_1_alg».proof.Proof.Region0
import proofs.«425642_j35545149342388_1_alg».proof.Proof.Region1
import proofs.«425642_j35545149342388_1_alg».proof.Proof.IndexRange
import proofs.«425642_j35545149342388_1_alg».proof.Proof.LibTRefCast
import Idealize.ShloMosaic.Lib.StableHlo.Run

set_option maxRecDepth 16384

noncomputable section

namespace Cert.KernelIdeal.Chain

open Cert.KernelIdeal Cert.KernelIdeal.Gen Cert.Spec
open Idealize.ShloMosaic Idealize.ShloMosaic.TcCoe Idealize.SL.Sem

/-- The row of the table an edge's column endpoint names (50000 added to a negative endpoint), as a column of
    start indices. -/
def rowIdx (col : IVec S800000 32) : IVec S800000x1 32 :=
  broadcastInDim S800000x1 ![0] Facts₀.bcast_S800000_S800000x1_0
    (select (cmpi .slt col (broadcastInDim S800000 ![] Facts₀.bcast_S_S800000 (constantI S_ 32 0#32)))
      (addi col (broadcastInDim S800000 ![] Facts₀.bcast_S_S800000 (constantI S_ 32 50000#32))) col)

/-- Per edge, whether the row number passes the test 0 ≤ row ≤ 49999. -/
def inRange (idx : IVec S800000x1 32) : IVec S800000 1 :=
  Host.reduce IntOp.andi
    (andi (cmpi .sge idx (broadcastInDim S800000x1 ![] Facts₀.bcast_S_S800000x1 (constantI S_ 32 0#32)))
      (cmpi .sle idx (broadcastInDim S800000x1 ![0, 1] Facts₀.bcast_S1x1_S800000x1_0_1
        (broadcastInDim S1x1 ![1] Facts₀.bcast_S1_S1x1_1 (constantI S1 32 49999#32)))))
    (constantI S_ 1 1#1) Facts₀.reducesTo_S800000x1_S800000_d1 Facts₀.h_S_

/-- One row of the table per edge. -/
def gathered (s : FVec Ideal S50000x128 .f32) (col : IVec S800000 32) : FVec Ideal S800000x128 .f32 :=
  Host.gather gather_S50000x128_S800000x1_S800000x128_1_0_n_n_0_1_1128 s (rowIdx col)

/-- The same, with the fill value where the row number fails the test. -/
def taken (s : FVec Ideal S50000x128 .f32) (col : IVec S800000 32) : FVec Ideal S800000x128 .f32 :=
  select (broadcastInDim S800000x128 ![0] Facts₀.bcast_S800000_S800000x128_0 (inRange (rowIdx col))) (gathered s col)
    (broadcastInDim S800000x128 ![] Facts₀.bcast_S_S800000x128 (constant S_ .f32 0x7FC00000#32))

/-- The edge weights as a column. -/
def weightCol (val : FVec Ideal S800000 .f32) : FVec Ideal S800000x1 .f32 :=
  broadcastInDim S800000x1 ![0] Facts₀.bcast_S800000_S800000x1_0 val

/-- The rows added up per row endpoint, from zeros. -/
def scattered (row : IVec S800000 32) (u : FVec Ideal S800000x128 .f32) : FVec Ideal S50000x128 .f32 :=
  Host.scatterAdd scatter_S50000x128_S800000x1_S800000x128_1_0_0_1
    (broadcastInDim S50000x128 ![] Facts₀.bcast_S_S50000x128 (constant S_ .f32 0x00000000#32))
    (broadcastInDim S800000x1 ![0] Facts₀.bcast_S800000_S800000x1_0 row) u

/-- Every column endpoint lies in [-50000, 50000). -/
def ColInRange (col : IVec S800000 32) : Prop :=
  ∀ e : S800000.Idx, IntOp.cmpi .sge (col e) 4294917296#32 = 1#1 ∧ IntOp.cmpi .slt (col e) 50000#32 = 1#1

/-- Then every edge's row number passes the test. -/
theorem inRange_ones (col : IVec S800000 32) (hcol : ColInRange col) (e : S800000.Idx) : inRange (rowIdx col) e = 1#1 := by
  unfold inRange
  refine Cert.IndexRange.reduce_andi_ones _ _ _ _ (fun _ => rfl) (fun i => ?_) e
  exact Cert.IndexRange.wrapped_inRange _ (hcol _).1 (hcol _).2

/-- So the guarded read is the plain row read. -/
theorem taken_eq_gathered (s : FVec Ideal S50000x128 .f32) (col : IVec S800000 32) (hcol : ColInRange col) :
    taken s col = gathered s col := by
  funext i
  unfold taken
  show Scalar.select (inRange (rowIdx col) _) (gathered s col i) _ = gathered s col i
  rw [inRange_ones col hcol]
  rfl

variable (m : (ℓ : Loc nD τ sig) → Buf (Elt Ideal) ℓ) (ρ : Dev nD → PrngReg)

/-- The first region leaves the projection of the two launched operands in its output array. -/
theorem support_at (c : Dev nD) :
    W1 m ρ c (Proc.devRef .tc main_v0) = matProd (m ((c : Thread nD τ).loc main_arg0)) (m ((c : Thread nD τ).loc main_arg1)) :=
  (W1_arr m ρ c 2).trans (Cert.KernelIdeal.Dense.final (V0 m ρ) c)

/-- The host's row read, from the first region's exit contents. -/
theorem taken_at (c : Dev nD) :
    V3 m ρ c main_v1 = taken (matProd (m ((c : Thread nD τ).loc main_arg0)) (m ((c : Thread nD τ).loc main_arg1))) (m ((c : Thread nD τ).loc main_arg3)) := by
  show StableHlo.after hostOps1_1 (StableHlo.after hostOps1 (W1 m ρ c)) (Proc.devRef .tc main_v1) = _
  after_results_simp
  simp only [Cert.Lib.ofBuf_toBuf]
  rw [support_at m ρ c, W1_of_ne m ρ c main_arg3 (by decide)]
  have e3 : ∀ h1 h2 h3, (StableHlo.TRef.of (sig := sig) (T := ⟨S800000, .i32⟩) main_arg3 h1 h2 h3).ofBuf (Val := Elt Ideal) (W0 m ρ c (Proc.devRef .tc main_arg3))
      = m ((c : Thread nD τ).loc main_arg3) := fun _ _ _ => rfl
  have e0 : ∀ h1 h2 h3 (s : FVec Ideal S50000x128 .f32), (StableHlo.TRef.of (sig := sig) (T := ⟨S50000x128, .f32⟩) main_v0 h1 h2 h3).ofBuf (Val := Elt Ideal) s = s :=
    fun _ _ _ _ => rfl
  have eo : ∀ h1 h2 h3 (v : FVec Ideal S800000x128 .f32), (StableHlo.TRef.of (sig := sig) (T := ⟨S800000x128, .f32⟩) main_v1 h1 h2 h3).toBuf (Val := Elt Ideal) v = v :=
    fun _ _ _ _ => rfl
  simp only [e3, e0, eo]
  unfold taken gathered inRange rowIdx
  rfl

/-- The weights as a column, at the second region's entry. -/
theorem weight_at (c : Dev nD) : V3 m ρ c main_v2 = weightCol (m ((c : Thread nD τ).loc main_arg4)) := by
  show StableHlo.after hostOps1_1 (StableHlo.after hostOps1 (W1 m ρ c)) (Proc.devRef .tc main_v2) = _
  after_results_simp
  rw [W1_of_ne m ρ c main_arg4 (by decide)]
  rfl

/-- The row endpoints are still the launched ones at the last host stretch. -/
theorem row_at (c : Dev nD) : W4 m ρ c (Proc.devRef .tc main_arg2) = m ((c : Thread nD τ).loc main_arg2) := by
  rw [W4_of_ne m ρ c main_arg2 (by decide)]
  show StableHlo.after hostOps1_1 (StableHlo.after hostOps1 (W1 m ρ c)) (Proc.devRef .tc main_arg2) = _
  after_results_simp
  rw [W1_of_ne m ρ c main_arg2 (by decide)]

/-- THE RESULT: project, read a row per edge, scale each by its weight, add up per row endpoint. -/
theorem result_eq (c : Dev nD) (hcol : ColInRange (m ((c : Thread nD τ).loc main_arg3))) :
    W5 m ρ c (Proc.devRef .tc main_v6)
      = scattered (m ((c : Thread nD τ).loc main_arg2))
          (scaleRows (gathered (matProd (m ((c : Thread nD τ).loc main_arg0)) (m ((c : Thread nD τ).loc main_arg1))) (m ((c : Thread nD τ).loc main_arg3)))
            (weightCol (m ((c : Thread nD τ).loc main_arg4)))) := by
  show StableHlo.after hostOps2 (W4 m ρ c) (Proc.devRef .tc main_v6) = _
  after_results_simp
  rw [row_at m ρ c, W4_arr m ρ c 2, Cert.KernelIdeal.Weight.final (V3 m ρ) c]
  unfold Cert.KernelIdeal.Weight.rowsArr Cert.KernelIdeal.Weight.colArr
  rw [taken_at m ρ c, weight_at m ρ c, taken_eq_gathered _ _ hcol]
  rfl

end Cert.KernelIdeal.Chain

end
-- ==== Proof.RefChain.lean ====
/-
  The reference, as four steps over whole arrays.

  The reference computes the dense projection X · W on the host, reads from it one row per edge (the row the
  edge's column endpoint names, an endpoint below zero counted from the end), multiplies each such row by the edge's
  weight, and adds the rows up per row endpoint into an array of zeros.  The projection is the contraction sum, and
  the multiplication by the weights, broadcast across the lanes, is the row scaling; the row read and the
  accumulation are carried as they stand.
-/
import proofs.«425642_j35545149342388_1_alg».proof.Proof.Gen.ReferenceIdeal.Run
import proofs.«425642_j35545149342388_1_alg».proof.Proof.Spec

noncomputable section

namespace Cert.ReferenceIdeal.Chain

open Cert.ReferenceIdeal Cert.ReferenceIdeal.Facts₀ Cert.ReferenceIdeal.Facts Cert.Spec Cert.Lib
open Idealize.ShloMosaic Idealize.ShloMosaic.TcCoe Idealize.SL.Sem

/-- The row of the table an edge's column endpoint names (50000 added to a negative endpoint), as a column of
    start indices. -/
def rowIdx (col : IVec S800000 32) : IVec S800000x1 32 :=
  broadcastInDim S800000x1 ![0] bcast_S800000_S800000x1_0
    (select (cmpi .slt col (broadcastInDim S800000 ![] bcast_S_S800000 (constantI S_ 32 0#32)))
      (addi col (broadcastInDim S800000 ![] bcast_S_S800000 (constantI S_ 32 50000#32))) col)

/-- One row of the table per edge. -/
def gathered (s : FVec Ideal S50000x128 .f32) (col : IVec S800000 32) : FVec Ideal S800000x128 .f32 :=
  Host.gather gather_S50000x128_S800000x1_S800000x128_1_0_n_n_0_1_1128 s (rowIdx col)

/-- The edge weights as a column. -/
def weightCol (val : FVec Ideal S800000 .f32) : FVec Ideal S800000x1 .f32 :=
  broadcastInDim S800000x1 ![0] bcast_S800000_S800000x1_0 val

/-- The rows added up per row endpoint, from zeros. -/
def scattered (row : IVec S800000 32) (u : FVec Ideal S800000x128 .f32) : FVec Ideal S50000x128 .f32 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 row) u

/-- The host product is a plain [50000, 256] · [256, 128] product. -/
theorem whole_plain : IsPlain dot_S50000x256_S256x128_S50000x128_1_0_0_1_n_n := ⟨rfl, rfl, rfl, rfl, rfl, rfl, rfl, rfl⟩

/-- The reference's result is: project, read a row per edge, scale by the weights, accumulate. -/
theorem result_eq (x : FVec Ideal S50000x256 .f32) (w : FVec Ideal S256x128 .f32) (row col : IVec S800000 32)
    (val : FVec Ideal S800000 .f32) :
    Host.scatterAdd scatter_S50000x128_S800000x1_S800000x128_1_0_0_1 (broadcastInDim S50000x128 ![] bcast_S_S50000x128 (constant (F := Ideal) S_ .f32 0x00000000#32)) (broadcastInDim S800000x1 ![0] bcast_S800000_S800000x1_0 row) (mulf (Host.gather gather_S50000x128_S800000x1_S800000x128_1_0_n_n_0_1_1128 (Host.dotGeneral dot_S50000x256_S256x128_S50000x128_1_0_0_1_n_n none x w) (broadcastInDim S800000x1 ![0] bcast_S800000_S800000x1_0 (select (cmpi .slt col (broadcastInDim S800000 ![] bcast_S_S800000 (constantI S_ 32 0#32))) (addi col (broadcastInDim S800000 ![] bcast_S_S800000 (constantI S_ 32 50000#32))) col))) (broadcastInDim S800000x128 ![0, 1] bcast_S800000x1_S800000x128_0_1 (broadcastInDim S800000x1 ![0] bcast_S800000_S800000x1_0 val)))
      = scattered row (scaleRows (gathered (matProd x w) col) (weightCol val)) := by
  rw [dotGeneral_eq_matProd whole_plain none x w, mulf_bcast_eq_scaleRows]
  rfl

end Cert.ReferenceIdeal.Chain

end
-- ==== Proof.Bridge.lean ====
/-
  The two programs' steps are the same functions.

  The row read, the weights' column and the accumulation are spelt once in each program, over that program's own
  copies of the same dimension records and shape facts; as functions of whole arrays they coincide.
-/
import proofs.«425642_j35545149342388_1_alg».proof.Proof.KernelChain
import proofs.«425642_j35545149342388_1_alg».proof.Proof.RefChain

noncomputable section

namespace Cert.Bridge

open Idealize.ShloMosaic Cert.Spec

theorem gathered_eq (s : FVec Ideal Cert.KernelIdeal.S50000x128 .f32) (col : IVec Cert.KernelIdeal.S800000 32) :
    Cert.ReferenceIdeal.Chain.gathered s col = Cert.KernelIdeal.Chain.gathered s col := rfl

theorem weightCol_eq (val : FVec Ideal Cert.KernelIdeal.S800000 .f32) :
    Cert.ReferenceIdeal.Chain.weightCol val = Cert.KernelIdeal.Chain.weightCol val := rfl

theorem scattered_eq (row : IVec Cert.KernelIdeal.S800000 32) (u : FVec Ideal Cert.KernelIdeal.S800000x128 .f32) :
    Cert.ReferenceIdeal.Chain.scattered row u = Cert.KernelIdeal.Chain.scattered row u := rfl

/-- Project, read a row per edge, scale, accumulate: one function, whichever program spells it. -/
theorem layer_eq (x : FVec Ideal Cert.KernelIdeal.S50000x256 .f32) (w : FVec Ideal Cert.KernelIdeal.S256x128 .f32)
    (row col : IVec Cert.KernelIdeal.S800000 32) (val : FVec Ideal Cert.KernelIdeal.S800000 .f32) :
    Cert.ReferenceIdeal.Chain.scattered row (scaleRows (Cert.ReferenceIdeal.Chain.gathered (matProd x w) col) (Cert.ReferenceIdeal.Chain.weightCol val))
      = Cert.KernelIdeal.Chain.scattered row (scaleRows (Cert.KernelIdeal.Chain.gathered (matProd x w) col) (Cert.KernelIdeal.Chain.weightCol val)) := by
  rw [gathered_eq, weightCol_eq, scattered_eq]

end Cert.Bridge

end
-- ==== Proof.PreRange.lean ====
/-
  What the precondition says of the column endpoints.

  The precondition is a conjunction; its last conjunct is "every column endpoint c has -50000 ≤ c and c < 50000",
  computed as a reduction by "and" over the edges of the conjunction of the two signed comparisons.  When the
  precondition holds that reduction is 1, so both comparisons hold at every edge.
-/
import proofs.«425642_j35545149342388_1_alg».proof.Pre_finite_inputs
import proofs.«425642_j35545149342388_1_alg».proof.Proof.Gen.Pre_finite_inputs
import Idealize.ShloMosaic.Lib.ReduceAll
import Idealize.ShloMosaic.Lib.ValueIdx

noncomputable section

namespace Cert.Pre_finite_inputs.Range

open Cert.Pre_finite_inputs Cert.Pre_finite_inputs.Facts Idealize.ShloMosaic

instance : Subsingleton S_.Idx := ⟨fun a b => funext fun d => d.elim0⟩

/-- Under the precondition every column endpoint lies in [-50000, 50000). -/
theorem col_range (a0 : FVec Ideal S50000x256 .f32) (a1 : FVec Ideal S256x128 .f32) (a2 a3 : IVec S800000 32)
    (a4 : FVec Ideal S800000 .f32) (h : fn (F := Ideal) a0 a1 a2 a3 a4 = fun _ => 1#1) (e : S800000.Idx) :
    IntOp.cmpi .sge (a3 e) 4294917296#32 = 1#1 ∧ IntOp.cmpi .slt (a3 e) 50000#32 = 1#1 := by
  have h0 := congrFun h ValueIdx.ix0
  dsimp only [fn, fn_part1] at h0
  have h1 := (IntOp.andi_eq_one.1 h0).2
  have h2 := Host.reduce_andi_all _ _ _ _ ValueIdx.ix0 h1 e
  exact IntOp.andi_eq_one.1 h2

end Cert.Pre_finite_inputs.Range

end
-- ==== Proof.lean ====
/-
  A graph-convolution layer: out = segment_sum (support[col] · val, row) with support = X · W.

  The kernel's program computes the projection X · W in a pipelined region (ten row tiles of 5000 rows, the operands
  passed through a change of float format, which is the identity on the extended reals), reads one row of it per edge
  on the host, scales the rows by the edge weights in a second pipelined region (a hundred tiles of 8000 edges), and
  adds the rows up per row endpoint on the host.  The reference does the same four steps on the host.  The two agree
  once every column endpoint names a row of the table, -50000 ≤ col < 50000 (an endpoint below zero counts from the
  end): outside that range the kernel's row read returns a fill value where the reference's clamps the row number.
  No property of the float inputs is used: the tile products are the whole product's entries as sums over the same
  256 coordinates, and the scaling multiplies the same two numbers on both sides.
-/
import proofs.«425642_j35545149342388_1_alg».proof.Defs
import proofs.«425642_j35545149342388_1_alg».proof.Proof.Gen.Kernel
import proofs.«425642_j35545149342388_1_alg».proof.Proof.Gen.Kernel.Skeleton
import proofs.«425642_j35545149342388_1_alg».proof.Proof.Gen.Kernel.Launch
import proofs.«425642_j35545149342388_1_alg».proof.Proof.Gen.Kernel.Points
import proofs.«425642_j35545149342388_1_alg».proof.Proof.Gen.Kernel.Frame
import proofs.«425642_j35545149342388_1_alg».proof.Proof.Gen.KernelIdeal
import proofs.«425642_j35545149342388_1_alg».proof.Proof.Gen.KernelIdeal.Skeleton
import proofs.«425642_j35545149342388_1_alg».proof.Proof.Gen.KernelIdeal.Launch
import proofs.«425642_j35545149342388_1_alg».proof.Proof.Gen.KernelIdeal.Points
import proofs.«425642_j35545149342388_1_alg».proof.Proof.Gen.KernelIdeal.Frame
import proofs.«425642_j35545149342388_1_alg».proof.Proof.Gen.ReferenceIdeal
import proofs.«425642_j35545149342388_1_alg».proof.Proof.Gen.ReferenceIdeal.Run
import proofs.«425642_j35545149342388_1_alg».proof.Proof.Gen.Pre_finite_inputs
import proofs.«425642_j35545149342388_1_alg».proof.Proof.KernelRun
import proofs.«425642_j35545149342388_1_alg».proof.Proof.KernelChain
import proofs.«425642_j35545149342388_1_alg».proof.Proof.RefChain
import proofs.«425642_j35545149342388_1_alg».proof.Proof.Bridge
import proofs.«425642_j35545149342388_1_alg».proof.Proof.PreRange
import Idealize.ShloMosaic.Adequacy
import Idealize.ShloMosaic.Init

noncomputable section

namespace Cert.Proof

open Idealize.ShloMosaic Idealize.SL.Sem Cert.Spec

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the result array at: project, read a row per edge, scale by the weights, add up per
    row endpoint — the kernel's program because the precondition keeps every column endpoint inside the table. -/
theorem algebraic : Cert.algebraic_KernelIdeal_ReferenceIdeal := by
  intro m ρ m' ρ' hpre hagree
  refine ⟨fun c => Cert.KernelIdeal.Chain.scattered (m ((c.tc : Thread Cert.KernelIdeal.nD Cert.KernelIdeal.τ).loc Cert.KernelIdeal.main_arg2))
      (scaleRows (Cert.KernelIdeal.Chain.gathered
          (matProd (m ((c.tc : Thread Cert.KernelIdeal.nD Cert.KernelIdeal.τ).loc Cert.KernelIdeal.main_arg0))
            (m ((c.tc : Thread Cert.KernelIdeal.nD Cert.KernelIdeal.τ).loc Cert.KernelIdeal.main_arg1)))
          (m ((c.tc : Thread Cert.KernelIdeal.nD Cert.KernelIdeal.τ).loc Cert.KernelIdeal.main_arg3)))
        (Cert.KernelIdeal.Chain.weightCol (m ((c.tc : Thread Cert.KernelIdeal.nD Cert.KernelIdeal.τ).loc Cert.KernelIdeal.main_arg4)))), ?_, ?_⟩
  · exact (θ_run Cert.KernelIdeal.defs _ _).mono
      (fun r h c => ⟨(h c).1.trans (Cert.KernelIdeal.Chain.result_eq m ρ c
          (Cert.Pre_finite_inputs.Range.col_range _ _ _ _ _ (hpre c))), (h c).2⟩)
      (Cert.KernelIdeal.Run.run_result m ρ)
  · refine (θ_run Cert.ReferenceIdeal.defs _ _).mono (fun r h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2]
    exact (Cert.ReferenceIdeal.Chain.result_eq _ _ _ _ _).trans (Cert.Bridge.layer_eq _ _ _ _ _)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
